-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x199x1000 : Shape := ⟨3, ![256, 199, 1000]⟩
abbrev S256x200x1000 : Shape := ⟨3, ![256, 200, 1000]⟩
abbrev S_ : Shape := ⟨0, ![]⟩

class Facts : Prop where
  bcast_S_S256x199x1000 : S_.BroadcastsInDim S256x199x1000 (![] : Fin 0 → Fin S256x199x1000.rank)
  reducesTo_S256x199x1000_S_d0_1_2 : S256x199x1000.ReducesTo [0, 1, 2] S_
  h_S_ : 0 < S_.numel
  bcast_S_S256x200x1000 : S_.BroadcastsInDim S256x200x1000 (![] : Fin 0 → Fin S256x200x1000.rank)
  reducesTo_S256x200x1000_S_d0_1_2 : S256x200x1000.ReducesTo [0, 1, 2] S_

variable [Facts]

def fn {F : FTy → Type} [FloatOps F] (main_arg0 : FVec F S256x199x1000 .f32) (main_arg1 : FVec F S256x200x1000 .f32) : IVec S_ 1 :=
  let main_v0 : FVec F S256x199x1000 .f32 := Host.absf main_arg0
  let main_cst : FVec F S_ .f32 := constant S_ .f32 0x7F800000#32
  let main_v1 : FVec F S256x199x1000 .f32 := broadcastInDim S256x199x1000 ![] bcast_S_S256x199x1000 main_cst
  let main_v2 : IVec S256x199x1000 1 := cmpf .olt main_v0 main_v1
  let main_c : IVec S_ 1 := constantI S_ 1 1#1
  let main_v3 : IVec S_ 1 := (fun x v => Host.reduce IntOp.andi x v reducesTo_S256x199x1000_S_d0_1_2 h_S_) main_v2 main_c
  let main_v4 : FVec F S256x200x1000 .f32 := Host.absf main_arg1
  let main_cst_0 : FVec F S_ .f32 := constant S_ .f32 0x7F800000#32
  let main_v5 : FVec F S256x200x1000 .f32 := broadcastInDim S256x200x1000 ![] bcast_S_S256x200x1000 main_cst_0
  let main_v6 : IVec S256x200x1000 1 := cmpf .olt main_v4 main_v5
  let main_c_1 : IVec S_ 1 := constantI S_ 1 1#1
  let main_v7 : IVec S_ 1 := (fun x v => Host.reduce IntOp.andi x v reducesTo_S256x200x1000_S_d0_1_2 h_S_) main_v6 main_c_1
  let main_v8 : IVec S_ 1 := andi main_v3 main_v7
  let main_cst_2 : FVec F S_ .f32 := constant S_ .f32 0x00000000#32
  let main_v9 : FVec F S256x200x1000 .f32 := broadcastInDim S256x200x1000 ![] bcast_S_S256x200x1000 main_cst_2
  let main_v10 : IVec S256x200x1000 1 := cmpf .oeq main_arg1 main_v9
  let main_cst_3 : FVec F S_ .f32 := constant S_ .f32 0x3F800000#32
  let main_v11 : FVec F S256x200x1000 .f32 := broadcastInDim S256x200x1000 ![] bcast_S_S256x200x1000 main_cst_3
  let main_v12 : IVec S256x200x1000 1 := cmpf .oeq main_arg1 main_v11
  let main_v13 : IVec S256x200x1000 1 := ori main_v10 main_v12
  let main_c_4 : IVec S_ 1 := constantI S_ 1 1#1
  let main_v14 : IVec S_ 1 := (fun x v => Host.reduce IntOp.andi x v reducesTo_S256x200x1000_S_d0_1_2 h_S_) main_v13 main_c_4
  let main_v15 : IVec S_ 1 := andi main_v8 main_v14
  main_v15
-- ==== Kernel.lean ====
abbrev S256x199x1000 : Shape := ⟨3, ![256, 199, 1000]⟩
abbrev S256x200x1000 : Shape := ⟨3, ![256, 200, 1000]⟩
abbrev S256x199x1 : Shape := ⟨3, ![256, 199, 1]⟩
abbrev S4x199x1000 : Shape := ⟨3, ![4, 199, 1000]⟩
abbrev S4x200x1000 : Shape := ⟨3, ![4, 200, 1000]⟩
abbrev S4x199x1 : Shape := ⟨3, ![4, 199, 1]⟩
abbrev S4x199 : Shape := ⟨2, ![4, 199]⟩
abbrev S256x199 : Shape := ⟨2, ![256, 199]⟩
abbrev S_ : Shape := ⟨0, ![]⟩
abbrev S256 : Shape := ⟨1, ![256]⟩

abbrev nBuf : Space → Nat
  | .hbm => 21
  | .vmem => 12
  | .smem => 0
  | _ => 0

abbrev bufTy : (tb : Table) → Fin (tcTables nBuf tb) → BufTy
  | .hbm, ⟨0, _⟩ => ⟨S256x199x1000, .f32⟩
  | .hbm, ⟨1, _⟩ => ⟨S256x200x1000, .f32⟩
  | .hbm, ⟨2, _⟩ => ⟨S256x199x1000, .f32⟩
  | .hbm, ⟨3, _⟩ => ⟨S256x199x1000, .f32⟩
  | .hbm, ⟨4, _⟩ => ⟨S256x199x1, .f32⟩
  | .hbm, ⟨5, _⟩ => ⟨S256x199x1, .f32⟩
  | .hbm, ⟨6, _⟩ => ⟨S256x199, .f32⟩
  | .hbm, ⟨7, _⟩ => ⟨S256x199, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S256x199, .f32⟩
  | .hbm, ⟨20, _⟩ => ⟨S256x199, .i1⟩
  | .local _ .vmem, ⟨0, _⟩ => ⟨S4x199x1000, .f32⟩
  | .local _ .vmem, ⟨1, _⟩ => ⟨S4x199x1000, .f32⟩
  | .local _ .vmem, ⟨2, _⟩ => ⟨S4x200x1000, .f32⟩
  | .local _ .vmem, ⟨3, _⟩ => ⟨S4x200x1000, .f32⟩
  | .local _ .vmem, ⟨4, _⟩ => ⟨S4x199x1000, .f32⟩
  | .local _ .vmem, ⟨5, _⟩ => ⟨S4x199x1000, .f32⟩
  | .local _ .vmem, ⟨6, _⟩ => ⟨S4x199x1000, .f32⟩
  | .local _ .vmem, ⟨7, _⟩ => ⟨S4x199x1000, .f32⟩
  | .local _ .vmem, ⟨8, _⟩ => ⟨S4x199x1, .f32⟩
  | .local _ .vmem, ⟨9, _⟩ => ⟨S4x199x1, .f32⟩
  | .local _ .vmem, ⟨10, _⟩ => ⟨S4x199x1, .f32⟩
  | .local _ .vmem, ⟨11, _⟩ => ⟨S4x199x1, .f32⟩
  | _, _ => ⟨S256x199x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x199x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x200x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x199x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x199x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x199x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x199x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4x199x1000_S4x199x1000_0_0_0 : ∀ a, (![0, 0, 0] : Fin 3 → Nat) a + S4x199x1000.size a ≤ S4x199x1000.size a
  h_S4x199x1000 : 0 < S4x199x1000.numel
  inb_S4x200x1000_S4x200x1000_0_0_0 : ∀ a, (![0, 0, 0] : Fin 3 → Nat) a + S4x200x1000.size a ≤ S4x200x1000.size a
  h_S4x200x1000 : 0 < S4x200x1000.numel
  slices_S4x200x1000_o0_1_0_S4x199x1000 : S4x200x1000.Slices ![0, 1, 0] S4x199x1000
  reduces_S4x199x1000_S4x199 : S4x199x1000.Reduces [2] S4x199
  shapeCasts_S4x199_S4x199x1 : S4x199.ShapeCasts S4x199x1
  broadcasts_S4x199x1_S4x199x1000 : S4x199x1.Broadcasts S4x199x1000
  inb_S4x199x1_S4x199x1_0_0_0 : ∀ a, (![0, 0, 0] : Fin 3 → Nat) a + S4x199x1.size a ≤ S4x199x1.size a
  h_S4x199x1 : 0 < S4x199x1.numel
  shapeCasts_S256x199x1_S256x199 : S256x199x1.ShapeCasts S256x199
  reducesTo_S256x199_S256_d1 : S256x199.ReducesTo [1] S256
  h_S_ : 0 < S_.numel
  bcast_S_S256 : S_.BroadcastsInDim S256 (![] : Fin 0 → Fin S256.rank)
  reducesTo_S256_S_d0 : S256.ReducesTo [0] S_
  bcast_S_S256x199 : S_.BroadcastsInDim S256x199 (![] : Fin 0 → Fin S256x199.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x199x1000.size a ≤ S256x199x1000.size a
  hwx0_0 : ∀ i : grid0.Coords, EltTy.bits .f32 = 32 ∨ (Rect.block (s := S256x199x1000) S4x199x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x200x1000.size a ≤ S256x200x1000.size a
  hwx0_1 : ∀ i : grid0.Coords, EltTy.bits .f32 = 32 ∨ (Rect.block (s := S256x200x1000) S4x200x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x199x1000.size a ≤ S256x199x1000.size a
  hwx0_2 : ∀ i : grid0.Coords, EltTy.bits .f32 = 32 ∨ (Rect.block (s := S256x199x1000) S4x199x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x199x1000.size a ≤ S256x199x1000.size a
  hwx0_3 : ∀ i : grid0.Coords, EltTy.bits .f32 = 32 ∨ (Rect.block (s := S256x199x1000) S4x199x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x199x1.size a ≤ S256x199x1.size a
  hwx0_4 : ∀ i : grid0.Coords, EltTy.bits .f32 = 32 ∨ (Rect.block (s := S256x199x1) S4x199x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x199x1.size a ≤ S256x199x1.size a
  hwx0_5 : ∀ i : grid0.Coords, EltTy.bits .f32 = 32 ∨ (Rect.block (s := S256x199x1) S4x199x1.size (cc0_transform_5 i) (hinb0_5 i)).WholeWords (EltTy.packing .f32)

variable [Facts₀]

abbrev win0_0 : Pipeline.Window sig grid0 :=
  Pipeline.Window.ofSpec (Memref.whole main_arg0) S4x199x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x200x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x199x1000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4x199x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S4x199x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S4x199x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x199x1000 : Shape := ⟨3, ![256, 199, 1000]⟩
abbrev S256x200x1000 : Shape := ⟨3, ![256, 200, 1000]⟩
abbrev S_ : Shape := ⟨0, ![]⟩
abbrev S256x199 : Shape := ⟨2, ![256, 199]⟩
abbrev S256x199x1 : Shape := ⟨3, ![256, 199, 1]⟩
abbrev S256 : Shape := ⟨1, ![256]⟩

abbrev nBuf : Space → Nat
  | .hbm => 44
  | .vmem => 0
  | .smem => 0
  | _ => 0

abbrev bufTy : (tb : Table) → Fin (tcTables nBuf tb) → BufTy
  | .hbm, ⟨0, _⟩ => ⟨S256x199x1000, .f32⟩
  | .hbm, ⟨1, _⟩ => ⟨S256x200x1000, .f32⟩
  | .hbm, ⟨2, _⟩ => ⟨S256x199x1000, .f32⟩
  | .hbm, ⟨3, _⟩ => ⟨S_, .f32⟩
  | .hbm, ⟨4, _⟩ => ⟨S256x199x1000, .f32⟩
  | .hbm, ⟨5, _⟩ => ⟨S256x199x1000, .i1⟩
  | .hbm, ⟨6, _⟩ => ⟨S_, .i1⟩
  | .hbm, ⟨7, _⟩ => ⟨S256x199, .i1⟩
  | .hbm, ⟨8, _⟩ => ⟨S256x199x1, .i1⟩
  | .hbm, ⟨9, _⟩ => ⟨S256x199x1, .f32⟩
  | .hbm, ⟨10, _⟩ => ⟨S256x199x1000, .f32⟩
  | .hbm, ⟨11, _⟩ => ⟨S_, .f32⟩
  | .hbm, ⟨12, _⟩ => ⟨S256x199x1000, .f32⟩
  | .hbm, ⟨13, _⟩ => ⟨S256x199x1000, .f32⟩
  | .hbm, ⟨14, _⟩ => ⟨S256x199x1000, .f32⟩
  | .hbm, ⟨15, _⟩ => ⟨S256x199x1000, .f32⟩
  | .hbm, ⟨16, _⟩ => ⟨S_, .f32⟩
  | .hbm, ⟨17, _⟩ => ⟨S256x199x1000, .f32⟩
  | .hbm, ⟨18, _⟩ => ⟨S256x199x1000, .f32⟩
  | .hbm, ⟨19, _⟩ => ⟨S256x199x1000, .f32⟩
  | .hbm, ⟨20, _⟩ => ⟨S_, .f32⟩
  | .hbm, ⟨21, _⟩ => ⟨S256x199x1000, .f32⟩
  | .hbm, ⟨22, _⟩ => ⟨S256x199x1000, .f32⟩
  | .hbm, ⟨23, _⟩ => ⟨S256x199x1000, .f32⟩
  | .hbm, ⟨24, _⟩ => ⟨S256x199x1000, .f32⟩
  | .hbm, ⟨25, _⟩ => ⟨S256x199x1000, .f32⟩
  | .hbm, ⟨26, _⟩ => ⟨S256x199, .i32⟩
  | .hbm, ⟨27, _⟩ => ⟨S_, .i32⟩
  | .hbm, ⟨28, _⟩ => ⟨S256, .i32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256x199x1000, .f32⟩
  | .hbm, ⟨34, _⟩ => ⟨S256x199x1000, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S_, .f32⟩
  | .hbm, ⟨40, _⟩ => ⟨S256x199x1000, .f32⟩
  | .hbm, ⟨41, _⟩ => ⟨S256x199x1000, .f32⟩
  | .hbm, ⟨42, _⟩ => ⟨S256x199x1000, .f32⟩
  | .hbm, ⟨43, _⟩ => ⟨S256x199x1000, .f32⟩
  | _, _ => ⟨S256x199x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  slices_S256x200x1000_S256x199x1000_0_1_0 : S256x200x1000.Slices ![0, 1, 0] S256x199x1000
  bcast_S_S256x199x1000 : S_.BroadcastsInDim S256x199x1000 (![] : Fin 0 → Fin S256x199x1000.rank)
  reducesTo_S256x199x1000_S256x199_d2 : S256x199x1000.ReducesTo [2] S256x199
  h_S_ : 0 < S_.numel
  bcast_S256x199_S256x199x1_0_1 : S256x199.BroadcastsInDim S256x199x1 (![0, 1] : Fin 2 → Fin S256x199x1.rank)
  natLt_1_32 : 1 < 32
  reducesTo_S256x199_S256_d1 : S256x199.ReducesTo [1] S256
  bcast_S_S256 : S_.BroadcastsInDim S256 (![] : Fin 0 → Fin S256.rank)
  bcast_S256x199x1_S256x199x1000_0_1_2 : S256x199x1.BroadcastsInDim S256x199x1000 (![0, 1, 2] : Fin 3 → Fin S256x199x1000.rank)
  reducesTo_S256x199x1000_S256_d1_2 : S256x199x1000.ReducesTo [1, 2] S256
  reducesTo_S256_S_d0 : S256.ReducesTo [0] S_

variable [Facts₀]

class Facts : Prop extends Facts₀ where

variable [Facts]
-- ==== Proof.Spec.lean ====
/-
  What both programs compute, as functions of the two argument arrays read as extended reals.

  `B` holds labels over (student, step, question), `P` predictions over (student, step ≥ 1, question).
  A row is a pair (student b, step t); its labels are `lab B b t q = B (b, t + 1, q)`.  The row's weight is the
  greatest label in it, `rowMax` (the fold of `max` from `⊥` over the thousand questions).  The results are

    * `maskedPred`  : `P · rowMax` on every row,
    * `maskedLab`   : `lab · rowMax` on every row,
    * `rowFlag`     : whether the row's weight exceeds one half,
    * `loss`        : the sum over students of (Σ_t Σ_q nll · rowMax) / ((Σ_t rowMax) · 1000), where `nll` is the
                       clamped binary cross entropy of one entry.

  Constants are kept as the bit patterns both programs print; none is evaluated here.
-/
import Idealize.ShloMosaic.PureOps.Ideal.Laws
import Idealize.ShloMosaic.Lib.ValueIdx

noncomputable section

namespace Cert.RowMask

open Idealize.ShloMosaic Idealize.ShloMosaic.ValueIdx

/-- Predictions: [student, step - 1, question]. -/
abbrev SPred : Shape := ⟨3, ![256, 199, 1000]⟩
/-- Labels: [student, step, question]. -/
abbrev SLab : Shape := ⟨3, ![256, 200, 1000]⟩
/-- Rows: [student, step - 1]. -/
abbrev SRow : Shape := ⟨2, ![256, 199]⟩
/-- Scalars. -/
abbrev SOne : Shape := ⟨0, ![]⟩

/-- The lower clamp of a logarithm, `-100`, as printed. -/
def clampC : EReal := Ideal.ofBits .f32 0xC2C80000#32
/-- The constant `1` of `1 - y`, as printed. -/
def oneC : EReal := Ideal.ofBits .f32 0x3F800000#32
/-- The number of questions, `1000`, as printed. -/
def countC : EReal := Ideal.ofBits .f32 0x447A0000#32
/-- The threshold `1/2` of the row flag, as printed. -/
def halfC : EReal := Ideal.ofBits .f32 0x3F000000#32

/-- The label of question `q` in row (b, t): step `t + 1` of the label array. -/
def lab (B : SLab.Idx → EReal) (b : Fin 256) (t : Fin 199) (q : Fin 1000) : EReal :=
  B (ix3 b (⟨1 + t.val, by have := t.isLt; omega⟩ : Fin 200) q)

/-- A row's weight: its greatest label (from `⊥`, so the greatest label exactly, the row being non-empty). -/
def rowMax (B : SLab.Idx → EReal) (b : Fin 256) (t : Fin 199) : EReal :=
  (Finset.univ : Finset (Fin 1000)).fold max ⊥ (fun q => lab B b t q)

/-- The clamped binary cross entropy of one entry: `-(y · max (log p) c + (1 - y) · max (log1p (-p)) c)`. -/
def nll (P : SPred.Idx → EReal) (B : SLab.Idx → EReal) (b : Fin 256) (t : Fin 199) (q : Fin 1000) : EReal :=
  -(lab B b t q * max (Ideal.log (P (ix3 b t q))) clampC
    + (oneC - lab B b t q) * max (Ideal.log1p (-(P (ix3 b t q)))) clampC)

/-- A row's weighted loss: the sum over its questions. -/
def rowLoss (P : SPred.Idx → EReal) (B : SLab.Idx → EReal) (b : Fin 256) (t : Fin 199) : EReal :=
  ∑ q : Fin 1000, nll P B b t q * rowMax B b t

/-- The loss: per student the weighted loss over the weighted count, summed over the students. -/
def loss (P : SPred.Idx → EReal) (B : SLab.Idx → EReal) : EReal :=
  ∑ b : Fin 256, Ideal.div (∑ t : Fin 199, rowLoss P B b t) ((∑ t : Fin 199, rowMax B b t) * countC)

/-- The loss as a rank-0 array. -/
def lossArr (P : SPred.Idx → EReal) (B : SLab.Idx → EReal) : SOne.Idx → EReal := fun _ => loss P B

/-- The predictions, each row scaled by its weight. -/
def maskedPred (P : SPred.Idx → EReal) (B : SLab.Idx → EReal) : SPred.Idx → EReal :=
  fun i => P i * rowMax B (i 0) (i 1)

/-- The labels, each row scaled by its weight. -/
def maskedLab (B : SLab.Idx → EReal) : SPred.Idx → EReal :=
  fun i => lab B (i 0) (i 1) (i 2) * rowMax B (i 0) (i 1)

/-- Which rows weigh more than one half. -/
def rowFlag (B : SLab.Idx → EReal) : SRow.Idx → BitVec 1 :=
  fun i => Ideal.cmp .ogt (rowMax B (i 0) (i 1)) halfC

end Cert.RowMask

end
-- ==== Proof.KPayload.lean ====
/-
  The kernel body's stored values, read at explicit coordinates of a block.

  A block holds four students.  For a block `x0` of predictions [4, 199, 1000] and a block `x1` of labels
  [4, 200, 1000], the body stores, at student `p`, row `t`, question `q`:
    * the row's weight `blkMax x1 p t`: the greatest of the labels `x1 (p, t + 1, ·)` (a lane maximum from `-∞`),
    * the prediction times that weight, the label times that weight,
    * and per row the sum over the questions of the clamped cross entropy times that weight.
-/
import proofs.«415333_j14731737825626_3_alg».proof.Proof.Gen.KernelIdeal.Skeleton
import proofs.«415333_j14731737825626_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Cert.RowMask Idealize.ShloMosaic Idealize.ShloMosaic.ValueIdx

/-- Step `t + 1` of the label array. -/
abbrev nxt (t : Fin 199) : Fin 200 := ⟨1 + t.val, by have := t.isLt; omega⟩

/-- The printed `-∞` is the bottom of the extended reals. -/
theorem ofBits_ninf : Ideal.ofBits .f32 0xFF800000#32 = ⊥ := by
  simp [Ideal.ofBits, Ideal.ieee]

/-- The labels of row (p, t) of a block: the slice drops step 0. -/
theorem pay1_apply (x1 : Vec Ideal S4x200x1000 .f32) (p : Fin 4) (t : Fin 199) (q : Fin 1000) :
    k0_pay1 x1 (ix3 p t q) = x1 (ix3 p (nxt t) q) := by
  unfold k0_pay1
  exact extractStridedSlice_apply ![0, 1, 0] x1 slices_S4x200x1000_o0_1_0_S4x199x1000 (ix3 p t q) (ix3 p (nxt t) q) (fun a => match a with
    | ⟨0, _⟩ => by show p.val = 0 + p.val; omega
    | ⟨1, _⟩ => by show 1 + t.val = 1 + t.val; rfl
    | ⟨2, _⟩ => by show q.val = 0 + q.val; omega)

/-- The weight of row (p, t) of a block: its greatest label. -/
def blkMax (x1 : Vec Ideal S4x200x1000 .f32) (p : Fin 4) (t : Fin 199) : EReal :=
  (Finset.univ : Finset (Fin 1000)).fold max ⊥ (fun q => x1 (ix3 p (nxt t) q))

/-- The index a reduction over the questions reads at question `q` of row (p, t). -/
theorem lift_row (p : Fin 4) (t : Fin 199) (q : Fin 1000) :
    reduces_S4x199x1000_S4x199.lift (ix2 p t) q = ix3 p t q := by
  funext a
  apply Fin.ext
  match a with
  | ⟨0, _⟩ => rfl
  | ⟨1, _⟩ => rfl
  | ⟨2, _⟩ => rfl

/-- The lane maximum, kept as a column, read at row (p, t). -/
theorem pay2_apply (x1 : Vec Ideal S4x200x1000 .f32) (p : Fin 4) (t : Fin 199) :
    k0_pay2 x1 (ix3 p t (0 : Fin 1)) = blkMax x1 p t := by
  unfold k0_pay2
  dsimp only
  refine (shapeCast_apply _ shapeCasts_S4x199_S4x199x1 (ix3 p t (0 : Fin 1)) (ix2 p t) ?_).trans ?_
  · rw [Shape.rowMajor_val_two, Shape.rowMajor_val_three]
    show p.val * 199 + t.val = (p.val * 199 + t.val) * 1 + 0
    omega
  · refine (Ideal.multiReduction_maximumf_single (k0_pay1 x1) _ reduces_S4x199x1000_S4x199 _ _ (ix2 p t)).trans ?_
    unfold blkMax
    rw [Ideal.ofBits_def, ofBits_ninf]
    have hf : (fun q : Fin 1000 => k0_pay1 x1 (reduces_S4x199x1000_S4x199.lift (ix2 p t) q))
        = fun q : Fin 1000 => x1 (ix3 p (nxt t) q) := funext fun q => by rw [lift_row, pay1_apply]
    exact congrArg (fun f : Fin 1000 → EReal => (Finset.univ : Finset (Fin 1000)).fold max ⊥ f) hf

/-- The weight, broadcast along the questions. -/
theorem bcast_pay2 (x1 : Vec Ideal S4x200x1000 .f32) (p : Fin 4) (t : Fin 199) (q : Fin 1000) :
    broadcastTo S4x199x1000 (k0_pay2 x1) broadcasts_S4x199x1_S4x199x1000 (ix3 p t q) = blkMax x1 p t := by
  refine (broadcastTo_apply (k0_pay2 x1) broadcasts_S4x199x1_S4x199x1000 (ix3 p t q) (ix3 p t (0 : Fin 1)) ?_).trans (pay2_apply x1 p t)
  intro a
  match a with
  | ⟨0, _⟩ => show p.val = if (4 : Nat) = 1 then 0 else p.val; rw [if_neg (by decide)]
  | ⟨1, _⟩ => show t.val = if (199 : Nat) = 1 then 0 else t.val; rw [if_neg (by decide)]
  | ⟨2, _⟩ => show (0 : Nat) = if (1 : Nat) = 1 then 0 else q.val; rw [if_pos rfl]

/-- The stored predictions: each times its row's weight. -/
theorem pay3_apply (x0 : Vec Ideal S4x199x1000 .f32) (x1 : Vec Ideal S4x200x1000 .f32) (p : Fin 4) (t : Fin 199) (q : Fin 1000) :
    k0_pay3 x0 x1 (ix3 p t q) = x0 (ix3 p t q) * blkMax x1 p t := by
  unfold k0_pay3
  show x0 (ix3 p t q) * broadcastTo S4x199x1000 (k0_pay2 x1) broadcasts_S4x199x1_S4x199x1000 (ix3 p t q) = _
  rw [bcast_pay2]

/-- The stored labels: each times its row's weight. -/
theorem pay4_apply (x1 : Vec Ideal S4x200x1000 .f32) (p : Fin 4) (t : Fin 199) (q : Fin 1000) :
    k0_pay4 x1 (ix3 p t q) = x1 (ix3 p (nxt t) q) * blkMax x1 p t := by
  unfold k0_pay4
  show k0_pay1 x1 (ix3 p t q) * broadcastTo S4x199x1000 (k0_pay2 x1) broadcasts_S4x199x1_S4x199x1000 (ix3 p t q) = _
  rw [bcast_pay2, pay1_apply]

/-- The clamped cross entropy of one entry of a block. -/
def blkNll (x0 : Vec Ideal S4x199x1000 .f32) (x1 : Vec Ideal S4x200x1000 .f32) (p : Fin 4) (t : Fin 199) (q : Fin 1000) : EReal :=
  -(x1 (ix3 p (nxt t) q) * max (Ideal.log (x0 (ix3 p t q))) clampC
    + (oneC - x1 (ix3 p (nxt t) q)) * max (Ideal.log1p (-(x0 (ix3 p t q)))) clampC)

/-- The stored row losses: the lane sum of the weighted cross entropy, kept as a column. -/
theorem pay5_apply (x0 : Vec Ideal S4x199x1000 .f32) (x1 : Vec Ideal S4x200x1000 .f32) (p : Fin 4) (t : Fin 199) :
    k0_pay5 x0 x1 (ix3 p t (0 : Fin 1)) = ∑ q : Fin 1000, blkNll x0 x1 p t q * blkMax x1 p t := by
  unfold k0_pay5
  dsimp only
  refine (shapeCast_apply _ shapeCasts_S4x199_S4x199x1 (ix3 p t (0 : Fin 1)) (ix2 p t) ?_).trans ?_
  · rw [Shape.rowMajor_val_two, Shape.rowMajor_val_three]
    show p.val * 199 + t.val = (p.val * 199 + t.val) * 1 + 0
    omega
  · refine (Ideal.multiReduction_add_single _ _ reduces_S4x199x1000_S4x199 _ _ (ix2 p t)).trans ?_
    refine Finset.sum_congr (s₁ := (Finset.univ : Finset (Fin 1000))) rfl fun (q : Fin 1000) _ => ?_
    rw [lift_row]
    show (Ideal.ofBits .f32 0x00000000#32
        - (k0_pay1 x1 (ix3 p t q) * max (Ideal.log (x0 (ix3 p t q))) (Ideal.ofBits .f32 0xC2C80000#32)
          + (Ideal.ofBits .f32 0x3F800000#32 - k0_pay1 x1 (ix3 p t q))
            * max (Ideal.log1p (Ideal.ofBits .f32 0x00000000#32 - x0 (ix3 p t q))) (Ideal.ofBits .f32 0xC2C80000#32)))
        * broadcastTo S4x199x1000 (k0_pay2 x1) broadcasts_S4x199x1_S4x199x1000 (ix3 p t q) = _
    rw [pay1_apply, bcast_pay2, Ideal.ofBits_zero_f32, zero_sub, zero_sub]
    rfl

end Cert.KernelIdeal.Hand

end
-- ==== Proof.KValue.lean ====
/-
  The kernel's four output arrays after its run, as functions of the two argument arrays.

  Grid point `T` (of 64) handles the students `4T … 4T + 3`: every window's block at `T` is the rows of those four
  students, whole along the other two axes.  So what the body stores for student `p` of the block is the
  specification's value for student `4T + p`, the blocks tile each output array, and each array ends at one
  function of the arguments: the masked predictions, the masked labels, the row weights and the row losses.
-/
import proofs.«415333_j14731737825626_3_alg».proof.Proof.Gen.KernelIdeal.Frame
import proofs.«415333_j14731737825626_3_alg».proof.Proof.KPayload
import Idealize.ShloMosaic.Lib.Pipeline.Value
import Idealize.ShloMosaic.Lib.Tactic

set_option maxRecDepth 16384

noncomputable section

namespace Cert.KernelIdeal.Hand

open Cert.KernelIdeal Cert.KernelIdeal.Gen Cert.RowMask Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- Every window's block index at point `T` is (T, 0, 0). -/
theorem idx_facts : ∀ T : Fin cfg0.N,
    (win0_0.index T (0 : Fin 3) = T.val ∧ win0_0.index T (1 : Fin 3) = 0 ∧ win0_0.index T (2 : Fin 3) = 0)
    ∧ (win0_1.index T (0 : Fin 3) = T.val ∧ win0_1.index T (1 : Fin 3) = 0 ∧ win0_1.index T (2 : Fin 3) = 0)
    ∧ (win0_2.index T (0 : Fin 3) = T.val ∧ win0_2.index T (1 : Fin 3) = 0 ∧ win0_2.index T (2 : Fin 3) = 0)
    ∧ (win0_3.index T (0 : Fin 3) = T.val ∧ win0_3.index T (1 : Fin 3) = 0 ∧ win0_3.index T (2 : Fin 3) = 0)
    ∧ (win0_4.index T (0 : Fin 3) = T.val ∧ win0_4.index T (1 : Fin 3) = 0 ∧ win0_4.index T (2 : Fin 3) = 0)
    ∧ (win0_5.index T (0 : Fin 3) = T.val ∧ win0_5.index T (1 : Fin 3) = 0 ∧ win0_5.index T (2 : Fin 3) = 0) :=
  (by decide +kernel : ∀ T : Fin grid0.N, _)

/-- The prediction and label arrays as the region finds them. -/
abbrev predA (c : Dev nD) : SPred.Idx → EReal := V m c main_arg0
abbrev labA (c : Dev nD) : SLab.Idx → EReal := V m c main_arg1

theorem T_lt (T : Fin cfg0.N) : T.val < 64 := by
  have h : T.val < grid0.N := T.isLt
  exact lt_of_lt_of_eq h N_0

/-- Student `p` of the block at point `T`. -/
abbrev stu (T : Fin cfg0.N) (p : Fin 4) : Fin 256 := ⟨4 * T.val + p.val, by have := T_lt T; have := p.isLt; omega⟩

/-- The prediction block at point `T` is the rows of its four students. -/
theorem iblk0_apply (c : Dev nD) (T : Fin cfg0.N) (p : Fin 4) (t : Fin 199) (q : Fin 1000) :
    (iblk m c 0 T : Vec Ideal S4x199x1000 .f32) (ix3 p t q) = predA m c (ix3 (stu T p) t q) := by
  obtain ⟨⟨e0, e1, e2⟩, -⟩ := idx_facts T
  unfold iblk
  rw [View.read_apply]
  show V m c main_arg0 _ = V m c main_arg0 _
  congr 1
  funext a
  apply Fin.ext
  match a with
  | ⟨0, _⟩ => show win0_0.index T (0 : Fin 3) * 4 + 1 * p.val = 4 * T.val + p.val; rw [e0]; omega
  | ⟨1, _⟩ => show win0_0.index T (1 : Fin 3) * 199 + 1 * t.val = t.val; rw [e1]; omega
  | ⟨2, _⟩ => show win0_0.index T (2 : Fin 3) * 1000 + 1 * q.val = q.val; rw [e2]; omega

/-- The label block at point `T` is the rows of its four students. -/
theorem iblk1_apply (c : Dev nD) (T : Fin cfg0.N) (p : Fin 4) (s : Fin 200) (q : Fin 1000) :
    (iblk m c 1 T : Vec Ideal S4x200x1000 .f32) (ix3 p s q) = labA m c (ix3 (stu T p) s q) := by
  obtain ⟨-, ⟨e0, e1, e2⟩, -⟩ := idx_facts T
  unfold iblk
  rw [View.read_apply]
  show V m c main_arg1 _ = V m c main_arg1 _
  congr 1
  funext a
  apply Fin.ext
  match a with
  | ⟨0, _⟩ => show win0_1.index T (0 : Fin 3) * 4 + 1 * p.val = 4 * T.val + p.val; rw [e0]; omega
  | ⟨1, _⟩ => show win0_1.index T (1 : Fin 3) * 200 + 1 * s.val = s.val; rw [e1]; omega
  | ⟨2, _⟩ => show win0_1.index T (2 : Fin 3) * 1000 + 1 * q.val = q.val; rw [e2]; omega

/-- A block row's weight is the array row's. -/
theorem blkMax_iblk (c : Dev nD) (T : Fin cfg0.N) (p : Fin 4) (t : Fin 199) :
    blkMax (iblk m c 1 T) p t = rowMax (labA m c) (stu T p) t := by
  unfold blkMax rowMax
  have hf : (fun q : Fin 1000 => (iblk m c 1 T : Vec Ideal S4x200x1000 .f32) (ix3 p (nxt t) q))
      = fun q : Fin 1000 => lab (labA m c) (stu T p) t q := funext fun q => by rw [iblk1_apply]; rfl
  exact congrArg (fun f : Fin 1000 → EReal => (Finset.univ : Finset (Fin 1000)).fold max ⊥ f) hf

/-- A block entry's cross entropy is the array entry's. -/
theorem blkNll_iblk (c : Dev nD) (T : Fin cfg0.N) (p : Fin 4) (t : Fin 199) (q : Fin 1000) :
    blkNll (iblk m c 0 T) (iblk m c 1 T) p t q = nll (predA m c) (labA m c) (stu T p) t q := by
  unfold blkNll nll
  rw [iblk0_apply, iblk1_apply]
  rfl

/-! ## Window 2: the masked predictions -/

/-- Point `T` writes back block `T` of the masked predictions. -/
theorem flushed2_eq (c : Dev nD) (T : Fin cfg0.N) :
    (dats m 0 c).flushed 2 T = ((cfg0.win 2).blk T).view.read (Elt Ideal) (maskedPred (predA m c) (labA m c)) := by
  obtain ⟨-, -, ⟨e0, e1, e2⟩, -⟩ := idx_facts T
  show (cfg0.win 2).cut (grid0.coords T) ((dats m 0 c).after 2 T) = _
  rw [after0_2]
  unfold out0_2
  rw [View.canon_unit_zero hz3]
  simp only [View.ld_unit_zero (S := S4x199x1000) hz3, View.ld_unit_zero (S := S4x200x1000) hz3]
  funext j
  revert j
  show ∀ j : S4x199x1000.Idx, k0_pay3 (iblk m c 0 T) (iblk m c 1 T) j
      = maskedPred (predA m c) (labA m c) (((cfg0.win 2).blk T).view.emb j)
  intro j
  obtain ⟨p, t, q, rfl⟩ : ∃ (p : Fin 4) (t : Fin 199) (q : Fin 1000), j = ix3 p t q := ⟨j 0, j 1, j 2, eq_ix3 j⟩
  have he : ((cfg0.win 2).blk T).view.emb (ix3 p t q) = (ix3 (stu T p) t q : SPred.Idx) := by
    funext a
    apply Fin.ext
    match a with
    | ⟨0, _⟩ => show win0_2.index T (0 : Fin 3) * 4 + 1 * p.val = 4 * T.val + p.val; rw [e0]; omega
    | ⟨1, _⟩ => show win0_2.index T (1 : Fin 3) * 199 + 1 * t.val = t.val; rw [e1]; omega
    | ⟨2, _⟩ => show win0_2.index T (2 : Fin 3) * 1000 + 1 * q.val = q.val; rw [e2]; omega
  rw [he]
  refine (pay3_apply (iblk m c 0 T) (iblk m c 1 T) p t q).trans ?_
  rw [iblk0_apply, blkMax_iblk]
  rfl

/-- An index of the prediction-shaped arrays lies in the block of the point that handles its student. -/
theorem T_of_lt (b : Fin 256) : b.val / 4 < cfg0.N := by
  have hb := b.isLt
  show b.val / 4 < grid0.N
  rw [N_0]
  omega

/-- The masked predictions array after the run. -/
theorem final2 (c : Dev nD) : (dats m 0 c).arrAt 2 cfg0.N = maskedPred (predA m c) (labA m c) :=
  (dats m 0 c).arrAt_eq_of_cover 2 (maskedPred (predA m c) (labA m c)) (fun T _ => flushed2_eq m c T) fun i => by
    have hi0 : (i 0).val < 256 := (i 0).isLt
    have hi1 : (i 1).val < 199 := (i 1).isLt
    have hi2 : (i 2).val < 1000 := (i 2).isLt
    refine ⟨⟨(i 0).val / 4, T_of_lt (i 0)⟩, flush0_2 _, ?_⟩
    obtain ⟨-, -, ⟨e0, e1, e2⟩, -⟩ := idx_facts ⟨(i 0).val / 4, T_of_lt (i 0)⟩
    have e0' : win0_2.index ⟨(i 0).val / 4, T_of_lt (i 0)⟩ (0 : Fin 3) = (i 0).val / 4 := e0
    show i ∈ ((View.whole main_v0_0).slice (win0_2.rect ⟨(i 0).val / 4, T_of_lt (i 0)⟩)).set
    rw [View.set_slice_whole, Rect.mem_set_unit]
    intro a
    match a with
    | ⟨0, _⟩ =>
      show win0_2.index ⟨(i 0).val / 4, T_of_lt (i 0)⟩ (0 : Fin 3) * 4 ≤ (i 0).val
        ∧ (i 0).val < win0_2.index ⟨(i 0).val / 4, T_of_lt (i 0)⟩ (0 : Fin 3) * 4 + 4
      rw [e0']; omega
    | ⟨1, _⟩ =>
      show win0_2.index ⟨(i 0).val / 4, T_of_lt (i 0)⟩ (1 : Fin 3) * 199 ≤ (i 1).val
        ∧ (i 1).val < win0_2.index ⟨(i 0).val / 4, T_of_lt (i 0)⟩ (1 : Fin 3) * 199 + 199
      rw [e1]; omega
    | ⟨2, _⟩ =>
      show win0_2.index ⟨(i 0).val / 4, T_of_lt (i 0)⟩ (2 : Fin 3) * 1000 ≤ (i 2).val
        ∧ (i 2).val < win0_2.index ⟨(i 0).val / 4, T_of_lt (i 0)⟩ (2 : Fin 3) * 1000 + 1000
      rw [e2]; omega

/-! ## Window 3: the masked labels -/

/-- Point `T` writes back block `T` of the masked labels. -/
theorem flushed3_eq (c : Dev nD) (T : Fin cfg0.N) :
    (dats m 0 c).flushed 3 T = ((cfg0.win 3).blk T).view.read (Elt Ideal) (maskedLab (labA m c)) := by
  obtain ⟨-, -, -, ⟨e0, e1, e2⟩, -⟩ := idx_facts T
  show (cfg0.win 3).cut (grid0.coords T) ((dats m 0 c).after 3 T) = _
  rw [after0_3]
  unfold out0_3
  rw [View.canon_unit_zero hz3]
  simp only [View.ld_unit_zero (S := S4x200x1000) hz3]
  funext j
  revert j
  show ∀ j : S4x199x1000.Idx, k0_pay4 (iblk m c 1 T) j = maskedLab (labA m c) (((cfg0.win 3).blk T).view.emb j)
  intro j
  obtain ⟨p, t, q, rfl⟩ : ∃ (p : Fin 4) (t : Fin 199) (q : Fin 1000), j = ix3 p t q := ⟨j 0, j 1, j 2, eq_ix3 j⟩
  have he : ((cfg0.win 3).blk T).view.emb (ix3 p t q) = (ix3 (stu T p) t q : SPred.Idx) := by
    funext a
    apply Fin.ext
    match a with
    | ⟨0, _⟩ => show win0_3.index T (0 : Fin 3) * 4 + 1 * p.val = 4 * T.val + p.val; rw [e0]; omega
    | ⟨1, _⟩ => show win0_3.index T (1 : Fin 3) * 199 + 1 * t.val = t.val; rw [e1]; omega
    | ⟨2, _⟩ => show win0_3.index T (2 : Fin 3) * 1000 + 1 * q.val = q.val; rw [e2]; omega
  rw [he]
  refine (pay4_apply (iblk m c 1 T) p t q).trans ?_
  rw [iblk1_apply, blkMax_iblk]
  rfl

/-- The masked labels array after the run. -/
theorem final3 (c : Dev nD) : (dats m 0 c).arrAt 3 cfg0.N = maskedLab (labA m c) :=
  (dats m 0 c).arrAt_eq_of_cover 3 (maskedLab (labA m c)) (fun T _ => flushed3_eq m c T) fun i => by
    have hi0 : (i 0).val < 256 := (i 0).isLt
    have hi1 : (i 1).val < 199 := (i 1).isLt
    have hi2 : (i 2).val < 1000 := (i 2).isLt
    refine ⟨⟨(i 0).val / 4, T_of_lt (i 0)⟩, flush0_3 _, ?_⟩
    obtain ⟨-, -, -, ⟨e0, e1, e2⟩, -⟩ := idx_facts ⟨(i 0).val / 4, T_of_lt (i 0)⟩
    have e0' : win0_3.index ⟨(i 0).val / 4, T_of_lt (i 0)⟩ (0 : Fin 3) = (i 0).val / 4 := e0
    show i ∈ ((View.whole main_v0_1).slice (win0_3.rect ⟨(i 0).val / 4, T_of_lt (i 0)⟩)).set
    rw [View.set_slice_whole, Rect.mem_set_unit]
    intro a
    match a with
    | ⟨0, _⟩ =>
      show win0_3.index ⟨(i 0).val / 4, T_of_lt (i 0)⟩ (0 : Fin 3) * 4 ≤ (i 0).val
        ∧ (i 0).val < win0_3.index ⟨(i 0).val / 4, T_of_lt (i 0)⟩ (0 : Fin 3) * 4 + 4
      rw [e0']; omega
    | ⟨1, _⟩ =>
      show win0_3.index ⟨(i 0).val / 4, T_of_lt (i 0)⟩ (1 : Fin 3) * 199 ≤ (i 1).val
        ∧ (i 1).val < win0_3.index ⟨(i 0).val / 4, T_of_lt (i 0)⟩ (1 : Fin 3) * 199 + 199
      rw [e1]; omega
    | ⟨2, _⟩ =>
      show win0_3.index ⟨(i 0).val / 4, T_of_lt (i 0)⟩ (2 : Fin 3) * 1000 ≤ (i 2).val
        ∧ (i 2).val < win0_3.index ⟨(i 0).val / 4, T_of_lt (i 0)⟩ (2 : Fin 3) * 1000 + 1000
      rw [e2]; omega

/-! ## Window 4: the row weights, as a column -/

/-- Rows with a unit axis: [student, step - 1, 1]. -/
abbrev SCol : Shape := ⟨3, ![256, 199, 1]⟩

/-- The row weights with their unit axis. -/
def weightCol (B : SLab.Idx → EReal) : SCol.Idx → EReal := fun i => rowMax B (i 0) (i 1)

/-- The row losses with their unit axis. -/
def lossCol (P : SPred.Idx → EReal) (B : SLab.Idx → EReal) : SCol.Idx → EReal := fun i => rowLoss P B (i 0) (i 1)

/-- Point `T` writes back block `T` of the row weights. -/
theorem flushed4_eq (c : Dev nD) (T : Fin cfg0.N) :
    (dats m 0 c).flushed 4 T = ((cfg0.win 4).blk T).view.read (Elt Ideal) (weightCol (labA m c)) := by
  obtain ⟨-, -, -, -, ⟨e0, e1, e2⟩, -⟩ := idx_facts T
  show (cfg0.win 4).cut (grid0.coords T) ((dats m 0 c).after 4 T) = _
  rw [after0_4]
  unfold out0_4
  rw [View.canon_unit_zero hz3]
  simp only [View.ld_unit_zero (S := S4x200x1000) hz3]
  funext j
  revert j
  show ∀ j : S4x199x1.Idx, k0_pay2 (iblk m c 1 T) j = weightCol (labA m c) (((cfg0.win 4).blk T).view.emb j)
  intro j
  obtain ⟨p, t, z, rfl⟩ : ∃ (p : Fin 4) (t : Fin 199) (z : Fin 1), j = ix3 p t z := ⟨j 0, j 1, j 2, eq_ix3 j⟩
  obtain rfl : z = 0 := Subsingleton.elim _ _
  have he : ((cfg0.win 4).blk T).view.emb (ix3 p t (0 : Fin 1)) = (ix3 (stu T p) t (0 : Fin 1) : SCol.Idx) := by
    funext a
    apply Fin.ext
    match a with
    | ⟨0, _⟩ => show win0_4.index T (0 : Fin 3) * 4 + 1 * p.val = 4 * T.val + p.val; rw [e0]; omega
    | ⟨1, _⟩ => show win0_4.index T (1 : Fin 3) * 199 + 1 * t.val = t.val; rw [e1]; omega
    | ⟨2, _⟩ => show win0_4.index T (2 : Fin 3) * 1 + 1 * (0 : Fin 1).val = (0 : Fin 1).val; rw [e2]; omega
  rw [he]
  refine (pay2_apply (iblk m c 1 T) p t).trans ?_
  rw [blkMax_iblk]
  rfl

/-- The row weights array after the run. -/
theorem final4 (c : Dev nD) : (dats m 0 c).arrAt 4 cfg0.N = weightCol (labA m c) :=
  (dats m 0 c).arrAt_eq_of_cover 4 (weightCol (labA m c)) (fun T _ => flushed4_eq m c T) fun i => by
    have hi0 : (i 0).val < 256 := (i 0).isLt
    have hi1 : (i 1).val < 199 := (i 1).isLt
    have hi2 : (i 2).val < 1 := (i 2).isLt
    refine ⟨⟨(i 0).val / 4, T_of_lt (i 0)⟩, flush0_4 _, ?_⟩
    obtain ⟨-, -, -, -, ⟨e0, e1, e2⟩, -⟩ := idx_facts ⟨(i 0).val / 4, T_of_lt (i 0)⟩
    have e0' : win0_4.index ⟨(i 0).val / 4, T_of_lt (i 0)⟩ (0 : Fin 3) = (i 0).val / 4 := e0
    show i ∈ ((View.whole main_v0_2).slice (win0_4.rect ⟨(i 0).val / 4, T_of_lt (i 0)⟩)).set
    rw [View.set_slice_whole, Rect.mem_set_unit]
    intro a
    match a with
    | ⟨0, _⟩ =>
      show win0_4.index ⟨(i 0).val / 4, T_of_lt (i 0)⟩ (0 : Fin 3) * 4 ≤ (i 0).val
        ∧ (i 0).val < win0_4.index ⟨(i 0).val / 4, T_of_lt (i 0)⟩ (0 : Fin 3) * 4 + 4
      rw [e0']; omega
    | ⟨1, _⟩ =>
      show win0_4.index ⟨(i 0).val / 4, T_of_lt (i 0)⟩ (1 : Fin 3) * 199 ≤ (i 1).val
        ∧ (i 1).val < win0_4.index ⟨(i 0).val / 4, T_of_lt (i 0)⟩ (1 : Fin 3) * 199 + 199
      rw [e1]; omega
    | ⟨2, _⟩ =>
      show win0_4.index ⟨(i 0).val / 4, T_of_lt (i 0)⟩ (2 : Fin 3) * 1 ≤ (i 2).val
        ∧ (i 2).val < win0_4.index ⟨(i 0).val / 4, T_of_lt (i 0)⟩ (2 : Fin 3) * 1 + 1
      rw [e2]; omega

/-! ## Window 5: the row losses, as a column -/

/-- Point `T` writes back block `T` of the row losses. -/
theorem flushed5_eq (c : Dev nD) (T : Fin cfg0.N) :
    (dats m 0 c).flushed 5 T = ((cfg0.win 5).blk T).view.read (Elt Ideal) (lossCol (predA m c) (labA m c)) := by
  obtain ⟨-, -, -, -, -, ⟨e0, e1, e2⟩⟩ := idx_facts T
  show (cfg0.win 5).cut (grid0.coords T) ((dats m 0 c).after 5 T) = _
  rw [after0_5]
  unfold out0_5
  rw [View.canon_unit_zero hz3]
  simp only [View.ld_unit_zero (S := S4x199x1000) hz3, View.ld_unit_zero (S := S4x200x1000) hz3]
  funext j
  revert j
  show ∀ j : S4x199x1.Idx, k0_pay5 (iblk m c 0 T) (iblk m c 1 T) j
      = lossCol (predA m c) (labA m c) (((cfg0.win 5).blk T).view.emb j)
  intro j
  obtain ⟨p, t, z, rfl⟩ : ∃ (p : Fin 4) (t : Fin 199) (z : Fin 1), j = ix3 p t z := ⟨j 0, j 1, j 2, eq_ix3 j⟩
  obtain rfl : z = 0 := Subsingleton.elim _ _
  have he : ((cfg0.win 5).blk T).view.emb (ix3 p t (0 : Fin 1)) = (ix3 (stu T p) t (0 : Fin 1) : SCol.Idx) := by
    funext a
    apply Fin.ext
    match a with
    | ⟨0, _⟩ => show win0_5.index T (0 : Fin 3) * 4 + 1 * p.val = 4 * T.val + p.val; rw [e0]; omega
    | ⟨1, _⟩ => show win0_5.index T (1 : Fin 3) * 199 + 1 * t.val = t.val; rw [e1]; omega
    | ⟨2, _⟩ => show win0_5.index T (2 : Fin 3) * 1 + 1 * (0 : Fin 1).val = (0 : Fin 1).val; rw [e2]; omega
  rw [he]
  refine (pay5_apply (iblk m c 0 T) (iblk m c 1 T) p t).trans ?_
  show _ = ∑ q : Fin 1000, nll (predA m c) (labA m c) (stu T p) t q * rowMax (labA m c) (stu T p) t
  refine Finset.sum_congr rfl fun q _ => ?_
  rw [blkNll_iblk, blkMax_iblk]

/-- The row losses array after the run. -/
theorem final5 (c : Dev nD) : (dats m 0 c).arrAt 5 cfg0.N = lossCol (predA m c) (labA m c) :=
  (dats m 0 c).arrAt_eq_of_cover 5 (lossCol (predA m c) (labA m c)) (fun T _ => flushed5_eq m c T) fun i => by
    have hi0 : (i 0).val < 256 := (i 0).isLt
    have hi1 : (i 1).val < 199 := (i 1).isLt
    have hi2 : (i 2).val < 1 := (i 2).isLt
    refine ⟨⟨(i 0).val / 4, T_of_lt (i 0)⟩, flush0_5 _, ?_⟩
    obtain ⟨-, -, -, -, -, ⟨e0, e1, e2⟩⟩ := idx_facts ⟨(i 0).val / 4, T_of_lt (i 0)⟩
    have e0' : win0_5.index ⟨(i 0).val / 4, T_of_lt (i 0)⟩ (0 : Fin 3) = (i 0).val / 4 := e0
    show i ∈ ((View.whole main_v0_3).slice (win0_5.rect ⟨(i 0).val / 4, T_of_lt (i 0)⟩)).set
    rw [View.set_slice_whole, Rect.mem_set_unit]
    intro a
    match a with
    | ⟨0, _⟩ =>
      show win0_5.index ⟨(i 0).val / 4, T_of_lt (i 0)⟩ (0 : Fin 3) * 4 ≤ (i 0).val
        ∧ (i 0).val < win0_5.index ⟨(i 0).val / 4, T_of_lt (i 0)⟩ (0 : Fin 3) * 4 + 4
      rw [e0']; omega
    | ⟨1, _⟩ =>
      show win0_5.index ⟨(i 0).val / 4, T_of_lt (i 0)⟩ (1 : Fin 3) * 199 ≤ (i 1).val
        ∧ (i 1).val < win0_5.index ⟨(i 0).val / 4, T_of_lt (i 0)⟩ (1 : Fin 3) * 199 + 199
      rw [e1]; omega
    | ⟨2, _⟩ =>
      show win0_5.index ⟨(i 0).val / 4, T_of_lt (i 0)⟩ (2 : Fin 3) * 1 ≤ (i 2).val
        ∧ (i 2).val < win0_5.index ⟨(i 0).val / 4, T_of_lt (i 0)⟩ (2 : Fin 3) * 1 + 1
      rw [e2]; omega

end Cert.KernelIdeal.Hand

end
-- ==== Proof.KRun.lean ====
/-
  The kernel program's run, read: the region's four arrays and the host lines after it.

  After the region the program reshapes the two columns to [student, step - 1], sums each over the steps, divides
  the summed row losses by the summed row weights times the number of questions, sums over the students, and
  compares the row weights with one half.
-/
import proofs.«415333_j14731737825626_3_alg».proof.Proof.KValue
import Idealize.ShloMosaic.Lib.StableHlo.Run
import Idealize.ShloMosaic.Lib.Pipeline.FrameSuffix
import Idealize.ShloMosaic.PureOps.Ideal.Laws

set_option maxRecDepth 16384

noncomputable section

namespace Cert.KernelIdeal.Hand

open Cert.KernelIdeal Cert.KernelIdeal.Gen Cert.RowMask Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- A host sum over the steps, read at a student. -/
theorem sum_steps (x : S256x199.Idx → EReal) (init : S_.Idx → EReal) (b : Fin 256) :
    Host.reduceAdd (F := Ideal) (φ := .f32) x init reducesTo_S256x199_S256_d1 h_S_ (ix1 b)
      = init (Shape.Idx.first h_S_) + ∑ t : Fin 199, x (ix2 b t) := by
  simp only [Host.reduceAdd, Ideal.hostReduceAdd_def]
  refine (Ideal.hostReduceAdd_single reducesTo_S256x199_S256_d1 (by decide : S256x199.Reduces [1] S256) x _ (ix1 b)).trans ?_
  congr 1
  refine Finset.sum_congr (s₁ := (Finset.univ : Finset (Fin 199))) rfl fun (t : Fin 199) _ => ?_
  congr 1
  funext a
  apply Fin.ext
  match a with
  | ⟨0, _⟩ => rfl
  | ⟨1, _⟩ => rfl

/-- A rank-1 index over the students is its coordinate. -/
def studentIdx : S256.Idx ≃ Fin 256 where
  toFun i := i 0
  invFun b := ix1 b
  left_inv i := (eq_ix1 i).symm
  right_inv _ := rfl

/-- A host sum over the students. -/
theorem sum_students (y : S256.Idx → EReal) (init : S_.Idx → EReal) (z : S_.Idx) :
    Host.reduceAdd (F := Ideal) (φ := .f32) y init reducesTo_S256_S_d0 h_S_ z
      = init (Shape.Idx.first h_S_) + ∑ b : Fin 256, y (ix1 b) := by
  simp only [Host.reduceAdd, Ideal.hostReduceAdd_def]
  refine (Ideal.hostReduceAdd_total reducesTo_S256_S_d0 (fun b => b.elim0) y _ z).trans ?_
  congr 1
  exact Fintype.sum_equiv studentIdx _ _ fun j => congrArg y (eq_ix1 j)

/-- A column reshaped to [student, step - 1], read at a row. -/
theorem col_reshape (col : SCol.Idx → EReal) (b : Fin 256) (t : Fin 199) :
    shapeCast S256x199 col shapeCasts_S256x199x1_S256x199 (ix2 b t) = col (ix3 b t (0 : Fin 1)) := by
  refine shapeCast_apply col shapeCasts_S256x199x1_S256x199 (ix2 b t) (ix3 b t (0 : Fin 1)) ?_
  rw [Shape.rowMajor_val_two, Shape.rowMajor_val_three]
  show (b.val * 199 + t.val) * 1 + 0 = b.val * 199 + t.val
  omega

/-- The region leaves the row weights in the third result array, -/
theorem warr4 (c : Dev nD) :
    Pipeline.withArrays (cfgs 0).spec c (V0 m c) (fun w => (dats m 0 c).arrAt w (cfgs 0).N) (Proc.tc.devRef main_v0_2)
      = weightCol (labA m c) :=
  (Pipeline.withArrays_arr spec0 launch0.win.arr_inj c _ _ 4).trans (final4 m c)

/-- and the row losses in the fourth. -/
theorem warr5 (c : Dev nD) :
    Pipeline.withArrays (cfgs 0).spec c (V0 m c) (fun w => (dats m 0 c).arrAt w (cfgs 0).N) (Proc.tc.devRef main_v0_3)
      = lossCol (predA m c) (labA m c) :=
  (Pipeline.withArrays_arr spec0 launch0.win.arr_inj c _ _ 5).trans (final5 m c)

/-- The loss after the host lines. -/
theorem tail_loss (c : Dev nD) :
    Pipeline.afterTail₀ cfgs (dats m) 0 (V0 m) [hostOps1] c main_v8 = lossArr (predA m c) (labA m c) := by
  unfold Pipeline.afterTail₀
  show StableHlo.after hostOps1 _ (Proc.devRef .tc main_v8) = _
  after_results
  rw [warr4 m c, warr5 m c]
  funext z
  refine (sum_students _ _ z).trans ?_
  show Ideal.ofBits .f32 0x00000000#32 + ∑ b : Fin 256,
      Ideal.div
        (Host.reduceAdd (F := Ideal) (φ := .f32) (fun i => shapeCast S256x199 (lossCol (predA m c) (labA m c)) shapeCasts_S256x199x1_S256x199 i)
          (constant S_ .f32 0x00000000#32) reducesTo_S256x199_S256_d1 h_S_ (ix1 b))
        (Host.reduceAdd (F := Ideal) (φ := .f32) (fun i => shapeCast S256x199 (weightCol (labA m c)) shapeCasts_S256x199x1_S256x199 i)
          (constant S_ .f32 0x00000000#32) reducesTo_S256x199_S256_d1 h_S_ (ix1 b) * Ideal.ofBits .f32 0x447A0000#32)
    = loss (predA m c) (labA m c)
  rw [Ideal.ofBits_zero_f32, zero_add]
  unfold loss
  refine Finset.sum_congr rfl fun b _ => ?_
  rw [sum_steps, sum_steps]
  show Ideal.div (Ideal.ofBits .f32 0x00000000#32 + ∑ t : Fin 199, shapeCast S256x199 (lossCol (predA m c) (labA m c)) shapeCasts_S256x199x1_S256x199 (ix2 b t))
      ((Ideal.ofBits .f32 0x00000000#32 + ∑ t : Fin 199, shapeCast S256x199 (weightCol (labA m c)) shapeCasts_S256x199x1_S256x199 (ix2 b t)) * countC) = _
  rw [Ideal.ofBits_zero_f32, zero_add, zero_add]
  simp only [col_reshape]
  rfl

/-- The row flags after the host lines. -/
theorem tail_flag (c : Dev nD) :
    Pipeline.afterTail₀ cfgs (dats m) 0 (V0 m) [hostOps1] c main_v10 = rowFlag (labA m c) := by
  unfold Pipeline.afterTail₀
  show StableHlo.after hostOps1 _ (Proc.devRef .tc main_v10) = _
  after_results
  rw [warr4 m c]
  funext i
  obtain ⟨b, t, rfl⟩ : ∃ (b : Fin 256) (t : Fin 199), i = ix2 b t := ⟨i 0, i 1, eq_ix2 i⟩
  show Ideal.cmp .ogt (shapeCast S256x199 (weightCol (labA m c)) shapeCasts_S256x199x1_S256x199 (ix2 b t)) (Ideal.ofBits .f32 0x3F000000#32) = _
  rw [col_reshape]
  rfl

/-- The loss and the row flags are written by the host lines, not by the region. -/
theorem v8_rest : main_v8 ∈ Pipeline.restRefs sig (cfgs 0).spec :=
  Pipeline.mem_restRefs_of main_v8 rfl (fun w => by fin_cases w <;> decide)
theorem v10_rest : main_v10 ∈ Pipeline.restRefs sig (cfgs 0).spec :=
  Pipeline.mem_restRefs_of main_v10 rfl (fun w => by fin_cases w <;> decide)

/-- The run, read: every weakly fair execution ends with the four results at the specification's functions of the
    arguments as launched, and the arguments unchanged. -/
theorem run : θ_run defs (onTc (τ := τ) (main (F := Ideal))) ⟨m, fun _ => 0, ρ⟩ fun r => ∀ c : Dev nD,
      r.2.mem ((c.tc : Thread nD τ).loc main_v8)
        = lossArr (m ((c.tc : Thread nD τ).loc main_arg0)) (m ((c.tc : Thread nD τ).loc main_arg1))
      ∧ r.2.mem ((c.tc : Thread nD τ).loc main_v0_0)
        = maskedPred (m ((c.tc : Thread nD τ).loc main_arg0)) (m ((c.tc : Thread nD τ).loc main_arg1))
      ∧ r.2.mem ((c.tc : Thread nD τ).loc main_v0_1) = maskedLab (m ((c.tc : Thread nD τ).loc main_arg1))
      ∧ r.2.mem ((c.tc : Thread nD τ).loc main_v10) = rowFlag (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v8 v8_rest).trans (tail_loss m c),
      ((h c).1 2).trans (final2 m c),
      ((h c).1 3).trans (final3 m c),
      ((h c).2 main_v10 v10_rest).trans (tail_flag m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.RowFacts.lean ====
/-
  Facts about rows of labels, free of any program.

  For labels that are each 0 or 1, a row's greatest label is 1 when the row contains a 1 and 0 when it does not
  (`rowMax_eq_one`, `rowMax_eq_zero`).  The remaining lemmas read three reductions at an index: an `or` over the
  questions of a row (`reduce_ori_row`), a float sum over the steps and questions of a student
  (`hostReduceAdd_rows`), and the integer count of a student's set row bits, cast to an extended real
  (`count_rows_cast`).
-/
import proofs.«415333_j14731737825626_3_alg».proof.Proof.Spec
import Idealize.ShloMosaic.PureOps.Reduce
import Idealize.ShloMosaic.Lib.IdealHost
import Idealize.ShloMosaic.Lib.StableHlo.Predicate

noncomputable section

namespace Cert.RowMask

open Idealize.ShloMosaic Idealize.ShloMosaic.ValueIdx

/-- The printed `1.0` is the extended real 1. -/
theorem oneC_eq : oneC = 1 := by
  exact Ideal.ofBits_one_f32

/-- The printed `0.5` is the real one half. -/
private theorem halfC_eq : halfC = (((1 : ℝ) / 2 : ℝ) : EReal) := by
  unfold halfC
  simp [Ideal.ofBits, Ideal.ieee, -EReal.coe_mul]; norm_num

/-- The printed `0.5` lies strictly between 0 and 1. -/
theorem halfC_pos : 0 < halfC := by
  rw [halfC_eq]; exact EReal.coe_pos.mpr (by norm_num)
theorem halfC_lt_one : halfC < 1 := by
  rw [halfC_eq, show (1 : EReal) = ((1 : ℝ) : EReal) by norm_cast]
  exact EReal.coe_lt_coe_iff.mpr (by norm_num)

/-- A row of 0/1 labels that contains a 1 has greatest label 1. -/
theorem rowMax_eq_one (B : SLab.Idx → EReal) (hB : ∀ i, B i = 0 ∨ B i = 1) (b : Fin 256) (t : Fin 199)
    (h : ∃ q, lab B b t q = 1) : rowMax B b t = 1 := by
  unfold rowMax
  apply le_antisymm
  · refine (Finset.fold_max_le _).2 ⟨bot_le, fun q _ => ?_⟩
    unfold lab
    rcases hB (ix3 b (⟨1 + t.val, by have := t.isLt; omega⟩ : Fin 200) q) with e | e <;> rw [e]
    exact zero_le_one
  · obtain ⟨q, hq⟩ := h
    exact (Finset.le_fold_max _).2 (Or.inr ⟨q, Finset.mem_univ _, hq.ge⟩)

/-- A row of 0/1 labels that contains no 1 has greatest label 0. -/
theorem rowMax_eq_zero (B : SLab.Idx → EReal) (hB : ∀ i, B i = 0 ∨ B i = 1) (b : Fin 256) (t : Fin 199)
    (h : ¬ ∃ q, lab B b t q = 1) : rowMax B b t = 0 := by
  have h0 : ∀ q, lab B b t q = 0 := fun q => by
    have hq : lab B b t q ≠ 1 := fun e => h ⟨q, e⟩
    unfold lab at hq ⊢
    rcases hB (ix3 b (⟨1 + t.val, by have := t.isLt; omega⟩ : Fin 200) q) with e | e
    · exact e
    · exact absurd e hq
  unfold rowMax
  apply le_antisymm
  · exact (Finset.fold_max_le _).2 ⟨bot_le, fun q _ => (h0 q).le⟩
  · exact (Finset.le_fold_max _).2 (Or.inr ⟨(⟨0, by norm_num⟩ : Fin 1000), Finset.mem_univ _, (h0 _).ge⟩)

/-- A fold of `or` over one-bit words from the bit 0 is set exactly when some term is. -/
private theorem fold_ori_eq_one {ι : Type} (S : Finset ι) (f : ι → BitVec 1) :
    S.fold IntOp.ori 0#1 f = 1#1 ↔ ∃ i ∈ S, f i = 1#1 := by
  induction S using Finset.cons_induction with
  | empty => simp
  | cons a S ha ih =>
    have hor : ∀ c d : BitVec 1, IntOp.ori c d = 1#1 ↔ c = 1#1 ∨ d = 1#1 := by decide
    rw [Finset.fold_cons, hor, ih]
    constructor
    · rintro (e | ⟨i, hi, e⟩)
      · exact ⟨a, Finset.mem_cons_self _ _, e⟩
      · exact ⟨i, Finset.mem_cons.2 (Or.inr hi), e⟩
    · rintro ⟨i, hi, e⟩
      rcases Finset.mem_cons.1 hi with rfl | hi
      · exact Or.inl e
      · exact Or.inr ⟨i, hi, e⟩

/-- An `or`-reduction of a bit mask over the questions, from the bit 0, is set at a row exactly when some question's
    bit is set in that row. -/
theorem reduce_ori_row {u : Shape} (mask : SPred.Idx → BitVec 1) (init : u.Idx → BitVec 1) (hinit : ∀ k, init k = 0#1)
    (h : SPred.ReducesTo [2] SRow) (hu : 0 < u.numel) (j : SRow.Idx) :
    Host.reduce IntOp.ori mask init h hu j = 1#1 ↔ ∃ q : Fin 1000, mask (ix3 (j 0) (j 1) q) = 1#1 := by
  classical
  rw [Host.reduce_eq_fold, hinit, fold_ori_eq_one]
  have hdrop : ∀ i : SPred.Idx, h.drop i = j ↔ i 0 = j 0 ∧ i 1 = j 1 := by
    intro i
    have hv0 : (h.drop i 0 : Nat) = i 0 := Shape.ReducesTo.drop_apply_val h i 0
    have hv1 : (h.drop i 1 : Nat) = i 1 := Shape.ReducesTo.drop_apply_val h i 1
    constructor
    · intro e; rw [e] at hv0 hv1; exact ⟨Fin.ext hv0.symm, Fin.ext hv1.symm⟩
    · rintro ⟨e0, e1⟩; funext b
      match b with
      | ⟨0, _⟩ => exact Fin.ext (hv0.trans (congrArg Fin.val e0))
      | ⟨1, _⟩ => exact Fin.ext (hv1.trans (congrArg Fin.val e1))
  constructor
  · rintro ⟨i, hi, e⟩
    obtain ⟨e0, e1⟩ := (hdrop i).1 (Finset.mem_filter.1 hi).2
    have hback : ix3 (j 0) (j 1) (i 2) = i := by
      funext b
      match b with
      | ⟨0, _⟩ => exact e0.symm
      | ⟨1, _⟩ => exact e1.symm
      | ⟨2, _⟩ => rfl
    exact ⟨i 2, (congrArg mask hback).trans e⟩
  · rintro ⟨q, e⟩
    exact ⟨ix3 (j 0) (j 1) q, Finset.mem_filter.2 ⟨Finset.mem_univ _, (hdrop _).2 ⟨rfl, rfl⟩⟩, e⟩

/-- A float sum over the steps and the questions, read at a student: the initial value plus the double sum. -/
theorem hostReduceAdd_rows (h : SPred.ReducesTo [1, 2] (⟨1, ![256]⟩ : Shape)) (x : SPred.Idx → EReal) (init : EReal)
    (j : (⟨1, ![256]⟩ : Shape).Idx) :
    Ideal.hostReduceAdd h x init j = init + ∑ t : Fin 199, ∑ q : Fin 1000, x (ix3 (j 0) t q) := by
  classical
  unfold Ideal.hostReduceAdd
  congr 1
  have hdrop : ∀ i : SPred.Idx, h.drop i = j ↔ i 0 = j 0 := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e])
  have hback : ∀ i : SPred.Idx, i 0 = j 0 → ix3 (j 0) (i 1) (i 2) = i := fun i h0 => by
    funext b
    match b with
    | ⟨0, _⟩ => exact h0.symm
    | ⟨1, _⟩ => rfl
    | ⟨2, _⟩ => rfl
  rw [← Fintype.sum_prod_type' (f := fun (t : Fin 199) (q : Fin 1000) => x (ix3 (j 0) t q))]
  refine Finset.sum_bij' (fun i _ => ((i 1 : Fin 199), (i 2 : Fin 1000))) (fun p _ => ix3 (j 0) p.1 p.2)
    (fun _ _ => Finset.mem_univ _)
    (fun p _ => Finset.mem_filter.2 ⟨Finset.mem_univ _, (hdrop _).2 rfl⟩)
    (fun i hi => hback i ((hdrop i).1 (Finset.mem_filter.1 hi).2)) (fun _ _ => rfl) ?_
  intro i hi
  exact (congrArg x (hback i ((hdrop i).1 (Finset.mem_filter.1 hi).2))).symm

/-- The number of elements of a finite set that satisfy a predicate, as an extended real, is the sum of ones over them. -/
private theorem card_filter_cast {ι : Type} [DecidableEq ι] (S : Finset ι) (p : ι → Prop) [DecidablePred p] :
    ((((S.filter p).card : ℕ) : ℝ) : EReal) = ∑ i ∈ S, (if p i then (1 : EReal) else 0) := by
  induction S using Finset.induction_on with
  | empty => simp
  | insert a S ha ih =>
    rw [Finset.sum_insert ha, Finset.filter_insert]
    split_ifs with hp
    · rw [Finset.card_insert_of_notMem (fun hm => ha (Finset.mem_filter.1 hm).1), Nat.cast_add, Nat.cast_one, EReal.coe_add, ih,
        add_comm]
      rfl
    · rw [ih, zero_add]

/-- The integer sum over the steps of a student's widened row bits, read signed and cast: the number of set bits, as
    a sum of zeros and ones. -/
theorem count_rows_cast {u : Shape} (mask : SRow.Idx → BitVec 1) (hw : 1 < 32)
    (h : SRow.ReducesTo [1] (⟨1, ![256]⟩ : Shape)) (hu : 0 < u.numel) (j : (⟨1, ![256]⟩ : Shape).Idx) :
    (((Host.reduce IntOp.addi (extui 32 mask hw) (constantI u 32 0#32) h hu j).toInt : ℝ) : EReal)
      = ∑ t : Fin 199, (if mask (ix2 (j 0) t) = 1#1 then (1 : EReal) else 0) := by
  classical
  have hij : ∀ (p : Fin 256) (q : Fin 199), StableHlo.Predicate.ij p q = ix2 p q := fun p q => by
    funext b; match b with | ⟨0, _⟩ => rfl | ⟨1, _⟩ => rfl
  have hcard := StableHlo.Predicate.toNat_reduce_count_cols (n := 256) (m := 199) (by norm_num) mask hw h hu j
  have hset : (Finset.univ.filter (fun q : Fin 199 => mask (StableHlo.Predicate.ij (j 0) q) = 1#1))
      = Finset.univ.filter (fun q : Fin 199 => mask (ix2 (j 0) q) = 1#1) :=
    Finset.filter_congr (fun q _ => Iff.of_eq (congrArg (fun x => mask x = 1#1) (hij (j 0) q)))
  rw [hset] at hcard
  have hle : (Finset.univ.filter (fun q : Fin 199 => mask (ix2 (j 0) q) = 1#1)).card ≤ 199 := by
    refine (Finset.card_le_univ _).trans ?_; simp
  rw [StableHlo.Predicate.toInt_eq_toNat_of_lt (by rw [hcard]; omega), hcard, Int.cast_natCast]
  exact card_filter_cast _ _

end Cert.RowMask

end
-- ==== Proof.RefValue.lean ====
/-
  The reference program's four results are the specification's functions, when every label is 0 or 1.

  The reference marks a row (student b, step t) by the bit "some label of the row equals 1", an or-reduction of
  equality tests, and multiplies by that bit converted to a float.  For labels that are each 0 or 1 the converted bit
  is the row's greatest label, the specification's row weight; every other operation is read entry by entry.
-/
import proofs.«415333_j14731737825626_3_alg».proof.Proof.Gen.ReferenceIdeal.Read
import proofs.«415333_j14731737825626_3_alg».proof.Proof.RowFacts
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.RowMask Idealize.ShloMosaic Idealize.ShloMosaic.ValueIdx

/-- The slice reads the label array at step t + 1: the row's label. -/
theorem slice_apply (B : (⟨S256x200x1000, .f32⟩ : BufTy).Contents (Elt Ideal)) (b : Fin 256) (t : Fin 199) (q : Fin 1000) :
    val_main_v0 (F := Ideal) B (ix3 b t q) = lab B b t q := by
  rw [val_main_v0_apply]
  unfold lab
  congr 1
  funext a
  match a with
  | ⟨0, _⟩ => rfl
  | ⟨1, _⟩ => rfl
  | ⟨2, _⟩ => rfl

/-- The equality test of an entry against the printed 1. -/
theorem eqbit_apply (B : (⟨S256x200x1000, .f32⟩ : BufTy).Contents (Elt Ideal)) (b : Fin 256) (t : Fin 199) (q : Fin 1000) :
    val_main_v2 (F := Ideal) B (ix3 b t q) = 1#1 ↔ lab B b t q = 1 := by
  rw [val_main_v2_apply, slice_apply, val_main_v1_apply, val_main_cst_apply, Ideal.cmpf_def, Ideal.ofBits_def]
  show BitVec.ofBool (decide (lab B b t q = oneC)) = 1#1 ↔ _
  rw [oneC_eq]
  by_cases h : lab B b t q = 1
  · simp [h]
  · simp [h]

/-- The row bit is set exactly when the row contains a 1. -/
theorem rowbit_iff (B : (⟨S256x200x1000, .f32⟩ : BufTy).Contents (Elt Ideal)) (b : Fin 256) (t : Fin 199) :
    val_main_v3 (F := Ideal) B (ix2 b t) = 1#1 ↔ ∃ q, lab B b t q = 1 := by
  unfold val_main_v3
  rw [reduce_ori_row (val_main_v2 (F := Ideal) B) (val_main_c (F := Ideal)) (fun _ => rfl)
    reducesTo_S256x199x1000_S256x199_d2 h_S_ (ix2 b t)]
  exact exists_congr fun q => eqbit_apply B b t q

/-- The row bit, converted to a float, is the row's greatest label. -/
theorem rowbit_cast (B : (⟨S256x200x1000, .f32⟩ : BufTy).Contents (Elt Ideal)) (hB : ∀ i, B i = 0 ∨ B i = 1)
    (b : Fin 256) (t : Fin 199) :
    (((val_main_v3 (F := Ideal) B (ix2 b t)).toNat : ℝ) : EReal) = rowMax B b t := by
  by_cases h : ∃ q, lab B b t q = 1
  · rw [(rowbit_iff B b t).mpr h, rowMax_eq_one B hB b t h]
    simp
  · rw [eq_zero_of_ne_one (fun h1 => h ((rowbit_iff B b t).mp h1)), rowMax_eq_zero B hB b t h]
    simp

/-- The row bit is the comparison of the row's greatest label with one half. -/
theorem rowbit_flag (B : (⟨S256x200x1000, .f32⟩ : BufTy).Contents (Elt Ideal)) (hB : ∀ i, B i = 0 ∨ B i = 1)
    (b : Fin 256) (t : Fin 199) :
    val_main_v3 (F := Ideal) B (ix2 b t) = Ideal.cmp .ogt (rowMax B b t) halfC := by
  by_cases h : ∃ q, lab B b t q = 1
  · rw [(rowbit_iff B b t).mpr h, rowMax_eq_one B hB b t h]
    show 1#1 = BitVec.ofBool (decide (halfC < 1))
    rw [decide_eq_true halfC_lt_one]; rfl
  · rw [eq_zero_of_ne_one (fun h1 => h ((rowbit_iff B b t).mp h1)), rowMax_eq_zero B hB b t h]
    show 0#1 = BitVec.ofBool (decide (halfC < 0))
    rw [decide_eq_false (not_lt.mpr halfC_pos.le)]; rfl

/-- The float row mask, with its unit axis, is the row's greatest label. -/
theorem weight_apply (B : (⟨S256x200x1000, .f32⟩ : BufTy).Contents (Elt Ideal)) (hB : ∀ i, B i = 0 ∨ B i = 1)
    (b : Fin 256) (t : Fin 199) (z : Fin 1) :
    val_main_v5 (F := Ideal) B (ix3 b t z) = rowMax B b t := by
  rw [val_main_v5_apply, val_main_v4_apply]
  have hi : idx_main_v4 (ix3 b t z) = ix2 b t := by
    funext a
    match a with
    | ⟨0, _⟩ => rfl
    | ⟨1, _⟩ => rfl
  rw [hi]
  exact rowbit_cast B hB b t

/-- The three broadcasts of the float row mask over the questions. -/
theorem weight24_apply (B : (⟨S256x200x1000, .f32⟩ : BufTy).Contents (Elt Ideal)) (hB : ∀ i, B i = 0 ∨ B i = 1)
    (b : Fin 256) (t : Fin 199) (q : Fin 1000) :
    val_main_v24 (F := Ideal) B (ix3 b t q) = rowMax B b t := by
  rw [val_main_v24_apply]
  have hi : idx_main_v24 (ix3 b t q) = ix3 b t (0 : Fin 1) := by
    funext a
    match a with
    | ⟨0, _⟩ => rfl
    | ⟨1, _⟩ => rfl
    | ⟨2, _⟩ => rfl
  rw [hi]
  exact weight_apply B hB b t 0
theorem weight29_apply (B : (⟨S256x200x1000, .f32⟩ : BufTy).Contents (Elt Ideal)) (hB : ∀ i, B i = 0 ∨ B i = 1)
    (b : Fin 256) (t : Fin 199) (q : Fin 1000) :
    val_main_v29 (F := Ideal) B (ix3 b t q) = rowMax B b t := by
  rw [val_main_v29_apply]
  have hi : idx_main_v29 (ix3 b t q) = ix3 b t (0 : Fin 1) := by
    funext a
    match a with
    | ⟨0, _⟩ => rfl
    | ⟨1, _⟩ => rfl
    | ⟨2, _⟩ => rfl
  rw [hi]
  exact weight_apply B hB b t 0
theorem weight31_apply (B : (⟨S256x200x1000, .f32⟩ : BufTy).Contents (Elt Ideal)) (hB : ∀ i, B i = 0 ∨ B i = 1)
    (b : Fin 256) (t : Fin 199) (q : Fin 1000) :
    val_main_v31 (F := Ideal) B (ix3 b t q) = rowMax B b t := by
  rw [val_main_v31_apply]
  have hi : idx_main_v31 (ix3 b t q) = ix3 b t (0 : Fin 1) := by
    funext a
    match a with
    | ⟨0, _⟩ => rfl
    | ⟨1, _⟩ => rfl
    | ⟨2, _⟩ => rfl
  rw [hi]
  exact weight_apply B hB b t 0

/-- The first result: the predictions scaled by the row weight. -/
theorem maskedPred_eq (P : (⟨S256x199x1000, .f32⟩ : BufTy).Contents (Elt Ideal))
    (B : (⟨S256x200x1000, .f32⟩ : BufTy).Contents (Elt Ideal)) (hB : ∀ i, B i = 0 ∨ B i = 1) :
    Read.val_main_v30 (F := Ideal) P B = maskedPred P B := by
  funext i
  obtain ⟨b, t, q, rfl⟩ : ∃ b t q, i = ix3 b t q := ⟨i 0, i 1, i 2, eq_ix3 i⟩
  rw [val_main_v30_apply, weight29_apply B hB b t q, Ideal.mulf_def]
  rfl

/-- The second result: the labels scaled by the row weight. -/
theorem maskedLab_eq (B : (⟨S256x200x1000, .f32⟩ : BufTy).Contents (Elt Ideal)) (hB : ∀ i, B i = 0 ∨ B i = 1) :
    Read.val_main_v32 (F := Ideal) B = maskedLab B := by
  funext i
  obtain ⟨b, t, q, rfl⟩ : ∃ b t q, i = ix3 b t q := ⟨i 0, i 1, i 2, eq_ix3 i⟩
  rw [val_main_v32_apply, slice_apply, weight31_apply B hB b t q, Ideal.mulf_def]
  rfl

/-- The third result: the row flag. -/
theorem rowFlag_eq (B : (⟨S256x200x1000, .f32⟩ : BufTy).Contents (Elt Ideal)) (hB : ∀ i, B i = 0 ∨ B i = 1) :
    Read.val_main_v3 (F := Ideal) B = rowFlag B := by
  funext i
  obtain ⟨b, t, rfl⟩ : ∃ b t, i = ix2 b t := ⟨i 0, i 1, eq_ix2 i⟩
  rw [rowbit_flag B hB b t]
  rfl

/-- The row bit as a zero-or-one summand is the row's greatest label. -/
theorem rowbit_ite (B : (⟨S256x200x1000, .f32⟩ : BufTy).Contents (Elt Ideal)) (hB : ∀ i, B i = 0 ∨ B i = 1)
    (b : Fin 256) (t : Fin 199) :
    (if val_main_v3 (F := Ideal) B (ix2 b t) = 1#1 then (1 : EReal) else 0) = rowMax B b t := by
  by_cases h : ∃ q, lab B b t q = 1
  · rw [if_pos ((rowbit_iff B b t).mpr h), rowMax_eq_one B hB b t h]
  · rw [if_neg (fun h1 => h ((rowbit_iff B b t).mp h1)), rowMax_eq_zero B hB b t h]

/-- One entry of the weighted loss array: the clamped cross entropy times the row weight. -/
theorem term_apply (P : (⟨S256x199x1000, .f32⟩ : BufTy).Contents (Elt Ideal))
    (B : (⟨S256x200x1000, .f32⟩ : BufTy).Contents (Elt Ideal)) (hB : ∀ i, B i = 0 ∨ B i = 1)
    (b : Fin 256) (t : Fin 199) (q : Fin 1000) :
    val_main_v25 (F := Ideal) P B (ix3 b t q) = nll P B b t q * rowMax B b t := by
  rw [val_main_v25_apply, weight24_apply B hB b t q, val_main_v18_apply, val_main_v17_apply, val_main_v13_apply,
    val_main_v16_apply, val_main_v15_apply, val_main_v14_apply, val_main_cst_2_apply, val_main_v12_apply,
    val_main_v11_apply, val_main_cst_1_apply, val_main_v10_apply, val_main_v9_apply, val_main_v8_apply,
    val_main_v7_apply, val_main_cst_0_apply, val_main_v6_apply, slice_apply]
  rfl

/-- A student's numerator: the weighted loss summed over the steps. -/
theorem num_apply (P : (⟨S256x199x1000, .f32⟩ : BufTy).Contents (Elt Ideal))
    (B : (⟨S256x200x1000, .f32⟩ : BufTy).Contents (Elt Ideal)) (hB : ∀ i, B i = 0 ∨ B i = 1) (b : Fin 256) :
    val_main_v26 (F := Ideal) P B (ix1 b) = ∑ t : Fin 199, rowLoss P B b t := by
  unfold val_main_v26 Host.reduceAdd
  rw [Ideal.hostReduceAdd_def, hostReduceAdd_rows, val_main_cst_5_apply, Ideal.ofBits_def, Ideal.ofBits_zero_f32, zero_add]
  refine Finset.sum_congr rfl fun t _ => ?_
  unfold rowLoss
  refine Finset.sum_congr rfl fun q _ => ?_
  exact term_apply P B hB b t q

/-- A student's denominator: the weighted count of rows times the number of questions. -/
theorem den_apply (B : (⟨S256x200x1000, .f32⟩ : BufTy).Contents (Elt Ideal)) (hB : ∀ i, B i = 0 ∨ B i = 1) (b : Fin 256) :
    val_main_v23 (F := Ideal) B (ix1 b) = (∑ t : Fin 199, rowMax B b t) * countC := by
  have h21 : val_main_v21 (F := Ideal) B (ix1 b) = ∑ t : Fin 199, rowMax B b t := by
    refine (count_rows_cast (val_main_v3 (F := Ideal) B) natLt_1_32 reducesTo_S256x199_S256_d1 h_S_ (ix1 b)).trans ?_
    exact Finset.sum_congr rfl fun t _ => rowbit_ite B hB b t
  rw [val_main_v23_apply, h21, val_main_v22_apply, val_main_cst_4_apply, Ideal.mulf_def]
  rfl

/-- A rank-1 index of the students is its coordinate. -/
def studentEquiv : S256.Idx ≃ Fin 256 where
  toFun i := i 0
  invFun b := ix1 b
  left_inv i := (eq_ix1 i).symm
  right_inv _ := rfl

/-- The fourth result: the loss. -/
theorem loss_eq (P : (⟨S256x199x1000, .f32⟩ : BufTy).Contents (Elt Ideal))
    (B : (⟨S256x200x1000, .f32⟩ : BufTy).Contents (Elt Ideal)) (hB : ∀ i, B i = 0 ∨ B i = 1) :
    Read.val_main_v28 (F := Ideal) P B = lossArr P B := by
  funext i
  rw [val_main_v28_apply, val_main_cst_6_apply, Ideal.ofBits_def, Ideal.ofBits_zero_f32, zero_add]
  unfold lossArr loss
  refine Fintype.sum_equiv studentEquiv _ _ fun j => ?_
  obtain ⟨b, rfl⟩ : ∃ b, j = ix1 b := ⟨j 0, eq_ix1 j⟩
  rw [val_main_v27_apply, Ideal.hostDivf_def, num_apply P B hB b, den_apply B hB b]
  rfl

end Cert.ReferenceIdeal.RefValue

end
-- ==== Proof.PreLabels.lean ====
/-
  What the label precondition says of the label array.

  The printed predicate ends in the conjunction of an earlier bit with an `and`-reduction, over every axis, of the
  mask "the label equals 0 or the label equals 1".  When the predicate holds, that mask is set at every index, so
  every label is the extended real 0 or the extended real 1.
-/
import proofs.«415333_j14731737825626_3_alg».proof.Pre_finite_inputs
import proofs.«415333_j14731737825626_3_alg».proof.Proof.Spec
import Idealize.ShloMosaic.Lib.ReduceAll
import Idealize.ShloMosaic.Lib.ValueIdx
import Idealize.ShloMosaic.Lib.IdealHost
import Idealize.ShloMosaic.PureOps.Ideal.Laws

noncomputable section

namespace Cert.RowMask

open Idealize.ShloMosaic Idealize.ShloMosaic.ValueIdx

/-- An ordered-equal comparison of extended reals that came out 1 compared equal values. -/
private theorem eq_of_cmp_oeq {x y : EReal} (e : Ideal.cmp .oeq x y = 1#1) : x = y := by
  have hb : ∀ b : Bool, BitVec.ofBool b = 1#1 → b = true := by decide
  simp only [Ideal.cmp] at e
  exact of_decide_eq_true (hb _ e)

/-- Under the precondition every label is 0 or 1. -/
theorem binary_of_pre [Cert.Pre_finite_inputs.Facts] (P : FVec Ideal Cert.Pre_finite_inputs.S256x199x1000 .f32)
    (B : FVec Ideal Cert.Pre_finite_inputs.S256x200x1000 .f32)
    (h : Cert.Pre_finite_inputs.fn (F := Ideal) P B = fun _ => 1#1) : ∀ i, B i = 0 ∨ B i = 1 := by
  intro i
  have h0 := congrFun h ValueIdx.ix0
  dsimp only [Cert.Pre_finite_inputs.fn] at h0
  -- the last conjunct: the reduction of the 0-or-1 mask over every axis is 1
  obtain ⟨_, h14⟩ := IntOp.andi_eq_one.1 h0
  haveI : Subsingleton Cert.Pre_finite_inputs.S_.Idx := ⟨fun a b => funext fun d => d.elim0⟩
  -- so the mask is 1 at the index i
  have h13 := Host.reduce_andi_all _ _ _ _ _ h14 i
  rcases IntOp.ori_eq_one.1 h13 with e | e
  · left
    have e' : Ideal.cmp .oeq (B i) (Ideal.ofBits .f32 0x00000000#32) = 1#1 := e
    rw [eq_of_cmp_oeq e', Ideal.ofBits_zero_f32]
  · right
    have e' : Ideal.cmp .oeq (B i) (Ideal.ofBits .f32 0x3F800000#32) = 1#1 := e
    rw [eq_of_cmp_oeq e', Ideal.ofBits_one_f32]

end Cert.RowMask

end
-- ==== Proof.lean ====
/-
  Equivalence, over the extended reals, of a fused masked binary-cross-entropy kernel and its jnp reference, for
  label arrays whose entries are each 0 or 1.

  Both programs take predictions `P` [256, 199, 1000] and labels `B` [256, 200, 1000] and return a loss, the
  predictions and the labels (from step 1 on) with every row (student, step) scaled by a row weight, and a row flag.
  The kernel's row weight is the greatest label of the row and its flag "weight > 1/2"; the reference's flag is
  "some label of the row equals 1" and its weight that bit as a float.  For 0/1 labels these agree: a row that
  contains a 1 has greatest label 1, a row that does not has greatest label 0.  Everything else is the same
  arithmetic in another arrangement: the kernel sums the weighted cross entropy over the questions inside the
  region and over the steps after it, the reference over both at once; the kernel counts weighted rows by a float
  sum, the reference by an integer count that it converts; the kernel negates by `0 - x`, the reference by `-x`.

  The specification (Proof/Spec.lean) is written in the kernel's form, so the kernel's run meets it for every input
  (Proof/KPayload.lean, KValue.lean, KRun.lean: the stored values at an index, the four arrays from their blocks, the
  host lines after the region).  The reference meets it when every label is 0 or 1 (Proof/RowFacts.lean,
  RefValue.lean), and the precondition says exactly that of the label array (Proof/PreLabels.lean).
-/
import proofs.«415333_j14731737825626_3_alg».proof.Defs
import proofs.«415333_j14731737825626_3_alg».proof.Proof.Gen.Kernel
import proofs.«415333_j14731737825626_3_alg».proof.Proof.Gen.Kernel.Frame
import proofs.«415333_j14731737825626_3_alg».proof.Proof.Gen.KernelIdeal
import proofs.«415333_j14731737825626_3_alg».proof.Proof.Gen.KernelIdeal.Frame
import proofs.«415333_j14731737825626_3_alg».proof.Proof.Gen.ReferenceIdeal
import proofs.«415333_j14731737825626_3_alg».proof.Proof.Gen.ReferenceIdeal.Run
import proofs.«415333_j14731737825626_3_alg».proof.Proof.Gen.ReferenceIdeal.Read
import proofs.«415333_j14731737825626_3_alg».proof.Proof.Gen.Pre_finite_inputs
import proofs.«415333_j14731737825626_3_alg».proof.Proof.KRun
import proofs.«415333_j14731737825626_3_alg».proof.Proof.RefValue
import proofs.«415333_j14731737825626_3_alg».proof.Proof.PreLabels
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and keeps its arguments: its run, with the results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- From memories that agree on the arguments, with every label 0 or 1, both programs end at the specification's
    loss, masked predictions, masked labels and row flags. -/
theorem algebraic : Cert.algebraic_KernelIdeal_ReferenceIdeal := by
  intro m ρ m' ρ' hpre hagree
  refine ⟨_, _, _, _, Cert.KernelIdeal.Hand.run m ρ, ?_⟩
  refine (θ_run Cert.ReferenceIdeal.defs _ _).mono (fun _ h c => ?_)
    (Cert.ReferenceIdeal.Value.run (F := Ideal) m' ρ')
  obtain ⟨h28, h30, h32, h3, ha0, ha1⟩ := h c
  refine ⟨h28.trans ?_, h30.trans ?_, h32.trans ?_, h3.trans ?_, ha0, ha1⟩
  · refine (Cert.ReferenceIdeal.Read.val_main_v28_eq _ _).trans ?_
    rw [(hagree c).1, (hagree c).2]
    exact Cert.ReferenceIdeal.RefValue.loss_eq _ _ (Cert.RowMask.binary_of_pre _ _ (hpre c))
  · refine (Cert.ReferenceIdeal.Read.val_main_v30_eq _ _).trans ?_
    rw [(hagree c).1, (hagree c).2]
    exact Cert.ReferenceIdeal.RefValue.maskedPred_eq _ _ (Cert.RowMask.binary_of_pre _ _ (hpre c))
  · refine (Cert.ReferenceIdeal.Read.val_main_v32_eq _).trans ?_
    rw [(hagree c).2]
    exact Cert.ReferenceIdeal.RefValue.maskedLab_eq _ (Cert.RowMask.binary_of_pre _ _ (hpre c))
  · refine (Cert.ReferenceIdeal.Read.val_main_v3_eq _).trans ?_
    rw [(hagree c).2]
    exact Cert.ReferenceIdeal.RefValue.rowFlag_eq _ (Cert.RowMask.binary_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
